-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x64 : Shape := ⟨2, ![16, 64]⟩
abbrev S128x256 : Shape := ⟨2, ![128, 256]⟩
abbrev S256x256 : Shape := ⟨2, ![256, 256]⟩
abbrev S256x64 : Shape := ⟨2, ![256, 64]⟩
abbrev S256 : Shape := ⟨1, ![256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256x64 .f32) (main_arg6 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x2048x256 .f32) (main_arg1 : FVec F S16x64 .f32) (main_arg2 : FVec F S128x256 .f32) (main_arg3 : FVec F S128x256 .f32) (main_arg4 : FVec F S256x256 .f32) (main_arg5 : FVec F S256x64 .f32) (main_arg6 : FVec F S256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S16x2048x256 : Shape := ⟨3, ![16, 2048, 256]⟩
abbrev S16x64 : Shape := ⟨2, ![16, 64]⟩
abbrev S128x256 : Shape := ⟨2, ![128, 256]⟩
abbrev S256x256 : Shape := ⟨2, ![256, 256]⟩
abbrev S256x64 : Shape := ⟨2, ![256, 64]⟩
abbrev S256 : Shape := ⟨1, ![256]⟩
abbrev S64x256 : Shape := ⟨2, ![64, 256]⟩
abbrev S16x256 : Shape := ⟨2, ![16, 256]⟩
abbrev S1x256 : Shape := ⟨2, ![1, 256]⟩
abbrev S16x1x256 : Shape := ⟨3, ![16, 1, 256]⟩
abbrev S1x2048x256 : Shape := ⟨3, ![1, 2048, 256]⟩
abbrev S1x1x256 : Shape := ⟨3, ![1, 1, 256]⟩
abbrev S1x256x256 : Shape := ⟨3, ![1, 256, 256]⟩
abbrev S2048x128 : Shape := ⟨2, ![2048, 128]⟩
abbrev S2048x256 : Shape := ⟨2, ![2048, 256]⟩
abbrev S256x128 : Shape := ⟨2, ![256, 128]⟩
abbrev S256x2048 : Shape := ⟨2, ![256, 2048]⟩

abbrev nBuf : Space → Nat
  | .hbm => 14
  | .vmem => 12
  | .smem => 0
  | _ => 0

abbrev bufTy : (tb : Table) → Fin (tcTables nBuf tb) → BufTy
  | .hbm, ⟨0, _⟩ => ⟨S16x2048x256, .f32⟩
  | .hbm, ⟨1, _⟩ => ⟨S16x64, .f32⟩
  | .hbm, ⟨2, _⟩ => ⟨S128x256, .f32⟩
  | .hbm, ⟨3, _⟩ => ⟨S128x256, .f32⟩
  | .hbm, ⟨4, _⟩ => ⟨S256x256, .f32⟩
  | .hbm, ⟨5, _⟩ => ⟨S256x64, .f32⟩
  | .hbm, ⟨6, _⟩ => ⟨S256, .f32⟩
  | .hbm, ⟨7, _⟩ => ⟨S64x256, .f32⟩
  | .hbm, ⟨8, _⟩ => ⟨S16x256, .f32⟩
  | .hbm, ⟨9, _⟩ => ⟨S1x256, .f32⟩
  | .hbm, ⟨10, _⟩ => ⟨S16x256, .f32⟩
  | .hbm, ⟨11, _⟩ => ⟨S16x256, .f32⟩
  | .hbm, ⟨12, _⟩ => ⟨S16x1x256, .f32⟩
  | .hbm, ⟨13, _⟩ => ⟨S16x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S1x1x256, .f32⟩
  | .local _ .vmem, ⟨6, _⟩ => ⟨S1x1x256, .f32⟩
  | .local _ .vmem, ⟨7, _⟩ => ⟨S1x256x256, .f32⟩
  | .local _ .vmem, ⟨8, _⟩ => ⟨S1x256x256, .f32⟩
  | .local _ .vmem, ⟨9, _⟩ => ⟨S2048x128, .bf16⟩
  | .local _ .vmem, ⟨10, _⟩ => ⟨S2048x128, .bf16⟩
  | .local _ .vmem, ⟨11, _⟩ => ⟨S2048x256, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k0_off2 (i : grid0.Coords) : Fin 3 → Nat :=
  let c0_12 : Index := 0#32
  let arg1 : BitVec 32 := BitVec.ofNat 32 (i 1).val
  let c256_i32 : BitVec 32 := 256#32
  let v3 : BitVec 32 := Scalar.muli arg1 c256_i32
  let v4 : BitVec 32 := v3
  let v23 : Index := Scalar.indexCast v4
  let c0_13 : Index := 0#32
  ![0, v23.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x64_S64x256_1_0 : S256x64.Transposes [1, 0] S64x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  shapeCasts_S16x256_S16x1x256 : S16x256.ShapeCasts S16x1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S256x128 : 0 < S256x128.numel
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S256x256 : S1x256.Broadcasts S256x256
  h_S1x256x256 : 0 < S1x256x256.numel
  shapeCasts_S1x256x256_S256x256 : S1x256x256.ShapeCasts S256x256
  inb_S1x256x256_S1x256x256_0_0_0 : ∀ a, (![0, 0, 0] : Fin 3 → Nat) a + S1x256x256.size a ≤ S1x256x256.size a
  shapeCasts_S256x256_S1x256x256 : S256x256.ShapeCasts S1x256x256
  dot_S16x64_S64x256_S16x256_1_0_0_1_n_n_wf : DotDims.WF S16x64 S64x256 S16x256 [1] [0] [0] [1] [] []
  dot_S2048x256_S128x256_S2048x128_1_1_0_0_n_n_wf : DotDims.WF S2048x256 S128x256 S2048x128 [1] [1] [0] [0] [] []
  dot_S2048x256_S256x256_S2048x256_1_1_0_0_n_n_wf : DotDims.WF S2048x256 S256x256 S2048x256 [1] [1] [0] [0] [] []
  dot_S256x128_S2048x128_S256x2048_1_1_0_0_n_n_wf : DotDims.WF S256x128 S2048x128 S256x2048 [1] [1] [0] [0] [] []
  dot_S256x2048_S2048x256_S256x256_1_0_0_1_n_n_wf : DotDims.WF S256x2048 S2048x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x128.size a ≤ S2048x128.size a
  k0_off2_inb : ∀ i : grid0.Coords, ∀ a, (k0_off2 i) a + S1x256x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S16x1x256.size a
  hwx0_4 : ∀ i : grid0.Coords, EltTy.bits .f32 = 32 ∨ (Rect.block (s := S16x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S16x2048x256.size a
  hwx0_5 : ∀ i : grid0.Coords, EltTy.bits .f32 = 32 ∨ (Rect.block (s := S16x2048x256) S1x256x256.size (cc0_transform_5 i) (hinb0_5 i)).WholeWords (EltTy.packing .f32)

variable [Facts₀]

def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x64 : Shape := ⟨2, ![16, 64]⟩
abbrev S128x256 : Shape := ⟨2, ![128, 256]⟩
abbrev S256x256 : Shape := ⟨2, ![256, 256]⟩
abbrev S256x64 : Shape := ⟨2, ![256, 64]⟩
abbrev S256 : Shape := ⟨1, ![256]⟩
abbrev S16x2048x128 : Shape := ⟨3, ![16, 2048, 128]⟩
abbrev S16x2048x2048 : Shape := ⟨3, ![16, 2048, 2048]⟩
abbrev S_ : Shape := ⟨0, ![]⟩
abbrev S64x256 : Shape := ⟨2, ![64, 256]⟩
abbrev S16x256 : Shape := ⟨2, ![16, 256]⟩
abbrev S1x256 : Shape := ⟨2, ![1, 256]⟩
abbrev S16x1x256 : Shape := ⟨3, ![16, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x64, .f32⟩
  | .hbm, ⟨2, _⟩ => ⟨S128x256, .f32⟩
  | .hbm, ⟨3, _⟩ => ⟨S128x256, .f32⟩
  | .hbm, ⟨4, _⟩ => ⟨S256x256, .f32⟩
  | .hbm, ⟨5, _⟩ => ⟨S256x64, .f32⟩
  | .hbm, ⟨6, _⟩ => ⟨S256, .f32⟩
  | .hbm, ⟨7, _⟩ => ⟨S16x2048x128, .f32⟩
  | .hbm, ⟨8, _⟩ => ⟨S16x2048x128, .f32⟩
  | .hbm, ⟨9, _⟩ => ⟨S16x2048x256, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048x256, .f32⟩
  | .hbm, ⟨15, _⟩ => ⟨S_, .f32⟩
  | .hbm, ⟨16, _⟩ => ⟨S16x2048x256, .f32⟩
  | .hbm, ⟨17, _⟩ => ⟨S16x2048x256, .f32⟩
  | .hbm, ⟨18, _⟩ => ⟨S64x256, .f32⟩
  | .hbm, ⟨19, _⟩ => ⟨S16x256, .f32⟩
  | .hbm, ⟨20, _⟩ => ⟨S1x256, .f32⟩
  | .hbm, ⟨21, _⟩ => ⟨S16x256, .f32⟩
  | .hbm, ⟨22, _⟩ => ⟨S16x256, .f32⟩
  | .hbm, ⟨23, _⟩ => ⟨S16x1x256, .f32⟩
  | .hbm, ⟨24, _⟩ => ⟨S16x2048x256, .f32⟩
  | .hbm, ⟨25, _⟩ => ⟨S16x2048x256, .f32⟩
  | .hbm, ⟨26, _⟩ => ⟨S_, .f32⟩
  | .hbm, ⟨27, _⟩ => ⟨S16x2048x256, .f32⟩
  | .hbm, ⟨28, _⟩ => ⟨S16x2048x256, .f32⟩
  | .hbm, ⟨29, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S16x2048x256 : S_.BroadcastsInDim S16x2048x256 (![] : Fin 0 → Fin S16x2048x256.rank)
  transposes_S256x64_S64x256_1_0 : S256x64.Transposes [1, 0] S64x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x1x256_0_2 : S16x256.BroadcastsInDim S16x1x256 (![0, 2] : Fin 2 → Fin S16x1x256.rank)
  bcast_S16x1x256_S16x2048x256_0_1_2 : S16x1x256.BroadcastsInDim S16x2048x256 (![0, 1, 2] : Fin 3 → Fin S16x2048x256.rank)
  dot_S16x2048x256_S128x256_S16x2048x128_2_1_01_0_n_n_wf : DotDims.WF S16x2048x256 S128x256 S16x2048x128 [2] [1] [0, 1] [0] [] []
  dot_S16x2048x256_S256x256_S16x2048x256_2_1_01_0_n_n_wf : DotDims.WF S16x2048x256 S256x256 S16x2048x256 [2] [1] [0, 1] [0] [] []
  dot_S16x2048x128_S16x2048x128_S16x2048x2048_2_2_1_1_0_0_wf : DotDims.WF S16x2048x128 S16x2048x128 S16x2048x2048 [2] [2] [1] [1] [0] [0]
  dot_S16x2048x2048_S16x2048x256_S16x2048x256_1_1_2_2_0_0_wf : DotDims.WF S16x2048x2048 S16x2048x256 S16x2048x256 [1] [1] [2] [2] [0] [0]
  dot_S16x64_S64x256_S16x256_1_0_0_1_n_n_wf : DotDims.WF S16x64 S64x256 S16x256 [1] [0] [0] [1] [] []

variable [Facts₀]

def dot_S16x2048x256_S128x256_S16x2048x128_2_1_01_0_n_n : DotDims S16x2048x256 S128x256 S16x2048x128 where
  lhsContracting := [2]
  rhsContracting := [1]
  lhsNonContracting := [0, 1]
  rhsNonContracting := [0]
  lhsBatch := []
  rhsBatch := []
  wf := dot_S16x2048x256_S128x256_S16x2048x128_2_1_01_0_n_n_wf
def dot_S16x2048x256_S256x256_S16x2048x256_2_1_01_0_n_n : DotDims S16x2048x256 S256x256 S16x2048x256 where
  lhsContracting := [2]
  rhsContracting := [1]
  lhsNonContracting := [0, 1]
  rhsNonContracting := [0]
  lhsBatch := []
  rhsBatch := []
  wf := dot_S16x2048x256_S256x256_S16x2048x256_2_1_01_0_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x256_S16x2048x256_1_1_2_2_0_0 : DotDims S16x2048x2048 S16x2048x256 S16x2048x256 where
  lhsContracting := [1]
  rhsContracting := [1]
  lhsNonContracting := [2]
  rhsNonContracting := [2]
  lhsBatch := [0]
  rhsBatch := [0]
  wf := dot_S16x2048x2048_S16x2048x256_S16x2048x256_1_1_2_2_0_0_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

class Facts : Prop extends Facts₀ where

variable [Facts]
-- ==== Proof.Pieces.lean ====
/-
  What one run of the kernel body leaves in its buffers, as functions of what it loads.

  At the first tile of a batch the body projects the batch's whole input block on the query, key and value weights and
  stores the three projections whole into three buffers it keeps; at every tile it then reads 256 rows of the key
  projection, all of the query and value projections, the gate row and 256 rows of the input, and stores one output
  tile. So each kept buffer ends at the projection's term of the loaded blocks, and the output tile at ONE term of the
  input block, the three kept arrays and the gate row, whether the kept arrays were stored in this very run (first tile:
  the loads read back what was just stored) or left by an earlier one.
-/
import proofs.«166339_j12249246728683_1_alg».proof.Proof.Gen.KernelIdeal.Frame
import Idealize.ShloMosaic.Lib.Pipeline.Value

set_option maxRecDepth 16384

noncomputable section

namespace Cert.ReluAttention.Kernel

open Cert.KernelIdeal Cert.KernelIdeal.Gen Idealize.ShloMosaic Idealize.ShloMosaic.TcCoe Idealize.ShloMosaic.Tactic

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The output tile at grid point `i`: the body's arithmetic over rows `256·i₁ …` of the key projection `k`, all of the
    query projection `q` and the value projection `v`, the gate block and rows `256·i₁ …` of the input block. -/
def tile (i : grid0.Coords) (x0 : Vec F S1x2048x256 .f32) (q k : Vec F S2048x128 .bf16) (v : Vec F S2048x256 .bf16)
    (x4 : Vec F S1x1x256 .f32) : Vec F S1x256x256 .f32 :=
  k0_pay5 (View.ld k (Rect.unit (s := S2048x128) (k0_off1 i) S256x128.size (Gen.k0_off1_inb i))) q v x4
    (View.ld x0 (Rect.unit (s := S1x2048x256) (k0_off2 i) S1x256x256.size (Gen.k0_off2_inb i)))

/-- At a batch's first tile the query buffer ends at the query projection of the loaded blocks. -/
theorem kept_query (c : Dev nD) (i : grid0.Coords) (arg2 : Memref sig .tc .vmem S1x2048x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (hc0 : cond0_0 i) (x0 : Vec F S1x2048x256 .f32) (x1 : Vec F S128x256 .f32) (x2 : Vec F S128x256 .f32) (x3 : Vec F S256x256 .f32) (x4 : Vec F S1x1x256 .f32) :
    sout0_A_0 c i arg2 harg2 arg3 harg3 arg4 harg4 arg5 harg5 arg6 harg6 arg7 harg7 arg8 harg8 arg9 harg9 arg10 harg10 hc0 x0 x1 x2 x3 x4 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4)]
  unfold kernelRun0_A
  dsimp only
  sl_unfold_run_names
  rw [View.canon_unit_zero zeros2]
  simp only [View.readAt_eq_ld, harg2.read_unread, harg3.read_unread, View.ld_unit_zero (S := S1x2048x256) zeros3,
    View.ld_unit_zero (S := S128x256) zeros2]

/-- … the key buffer at the key projection, -/
theorem kept_key (c : Dev nD) (i : grid0.Coords) (arg2 : Memref sig .tc .vmem S1x2048x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (hc0 : cond0_0 i) (x0 : Vec F S1x2048x256 .f32) (x1 : Vec F S128x256 .f32) (x2 : Vec F S128x256 .f32) (x3 : Vec F S256x256 .f32) (x4 : Vec F S1x1x256 .f32) :
    sout0_A_1 c i arg2 harg2 arg3 harg3 arg4 harg4 arg5 harg5 arg6 harg6 arg7 harg7 arg8 harg8 arg9 harg9 arg10 harg10 hc0 x0 x1 x2 x3 x4 = k0_pay3 x0 x2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4)]
  unfold kernelRun0_A
  dsimp only
  sl_unfold_run_names
  rw [View.canon_unit_zero zeros2]
  simp only [View.readAt_eq_ld, harg2.read_unread, harg4.read_unread, View.ld_unit_zero (S := S1x2048x256) zeros3,
    View.ld_unit_zero (S := S128x256) zeros2]

/-- … and the value buffer at the value projection. -/
theorem kept_value (c : Dev nD) (i : grid0.Coords) (arg2 : Memref sig .tc .vmem S1x2048x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (hc0 : cond0_0 i) (x0 : Vec F S1x2048x256 .f32) (x1 : Vec F S128x256 .f32) (x2 : Vec F S128x256 .f32) (x3 : Vec F S256x256 .f32) (x4 : Vec F S1x1x256 .f32) :
    sout0_A_2 c i arg2 harg2 arg3 harg3 arg4 harg4 arg5 harg5 arg6 harg6 arg7 harg7 arg8 harg8 arg9 harg9 arg10 harg10 hc0 x0 x1 x2 x3 x4 = k0_pay4 x0 x3 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 x0 x1 x2 x3 x4)]
  unfold kernelRun0_A
  dsimp only
  sl_unfold_run_names
  rw [View.canon_unit_zero zeros2]
  simp only [View.readAt_eq_ld, harg2.read_unread, harg5.read_unread, View.ld_unit_zero (S := S1x2048x256) zeros3,
    View.ld_unit_zero (S := S256x256) zeros2]

/-- At a batch's first tile the output tile is the tile term over the three projections of the loaded blocks: the body
    stored them whole a moment before, and its loads read those stores back. -/
theorem tile_first (c : Dev nD) (i : grid0.Coords) (arg2 : Memref sig .tc .vmem S1x2048x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (hc0 : cond0_0 i) (x0 : Vec F S1x2048x256 .f32) (x1 : Vec F S128x256 .f32) (x2 : Vec F S128x256 .f32) (x3 : Vec F S256x256 .f32) (x4 : Vec F S1x1x256 .f32) :
    out0_A_5 c i arg2 harg2 arg3 harg3 arg4 harg4 arg5 harg5 arg6 harg6 arg7 harg7 arg8 harg8 arg9 harg9 arg10 harg10 hc0 x0 x1 x2 x3 x4 = tile i x0 (k0_pay2 x0 x1) (k0_pay3 x0 x2) (k0_pay4 x0 x3) x4 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_run_names
  rw [View.canon_unit_zero zeros3]
  simp only [View.readAt_eq_ld, View.read_writes_junk_eq_canon, View.canon_unit_zero (S := S2048x128) zeros2, View.canon_unit_zero (S := S2048x256) zeros2,
    View.readCov_unit_zero (S := S2048x128) _ zeros2, View.readCov_unit_zero (S := S2048x256) _ zeros2,
    harg2.read_unread, harg3.read_unread, harg4.read_unread, harg5.read_unread, harg6.read_unread,
    View.ld_unit_zero (S := S1x2048x256) zeros3, View.ld_unit_zero (S := S128x256) zeros2,
    View.ld_unit_zero (S := S256x256) zeros2, View.ld_unit_zero (S := S1x1x256) zeros3]
  rfl

/-- At a later tile of the batch the output tile is the tile term over the kept arrays as the tile before left them. -/
theorem tile_later (c : Dev nD) (i : grid0.Coords) (arg2 : Memref sig .tc .vmem S1x2048x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x256 .bf16) (harg10 : arg10.IsWhole) (hc0 : ¬cond0_0 i) (x0 : Vec F S1x2048x256 .f32) (x1 : Vec F S128x256 .f32) (x2 : Vec F S128x256 .f32) (x3 : Vec F S256x256 .f32) (x4 : Vec F S1x1x256 .f32) (xs0 : Vec F S2048x128 .bf16) (xs1 : Vec F S2048x128 .bf16) (xs2 : Vec F S2048x256 .bf16) :
    out0_B_5 c i arg2 harg2 arg3 harg3 arg4 harg4 arg5 harg5 arg6 harg6 arg7 harg7 arg8 harg8 arg9 harg9 arg10 harg10 hc0 x0 x1 x2 x3 x4 xs0 xs1 xs2 = tile i x0 xs0 xs1 xs2 x4 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xs0 xs1 xs2)]
  unfold kernelRun0_B
  dsimp only
  sl_unfold_run_names
  rw [View.canon_unit_zero zeros3]
  simp only [View.readAt_eq_ld, harg2.read_unread, harg6.read_unread, harg8.read_unread, harg9.read_unread, harg10.read_unread,
    View.ld_unit_zero (S := S1x1x256) zeros3, View.ld_unit_zero (S := S2048x128) zeros2, View.ld_unit_zero (S := S2048x256) zeros2]
  rfl

end Cert.ReluAttention.Kernel

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.TileValue.lean ====
/-
  The kernel body's arithmetic read at an index, on the extended reals.

  A projection stored at a batch's first tile holds at (s, o) the row s of the batch's input block against the row o of
  the weight: the product with a transposed right operand, changes of float format being the identity. The output tile
  holds at (r, c): the rectified inner products of key row r with every query row s, contracted over s with column c of the
  value projection, times the word of 1/2048, plus the gate row at c, rectified, plus the input row r at c.
-/
import proofs.«166339_j12249246728683_1_alg».proof.Proof.Gen.KernelIdeal.Skeleton
import proofs.«166339_j12249246728683_1_alg».proof.Proof.LibTransposedRhsDot
import proofs.«166339_j12249246728683_1_alg».proof.Proof.LibPlainDot
import Idealize.ShloMosaic.Lib.ValueLayout
import Idealize.ShloMosaic.Lib.Pipeline.Value

noncomputable section

namespace Cert.ReluAttention.Kernel

open Cert.KernelIdeal Cert.KernelIdeal.Gen Idealize.ShloMosaic Idealize.ShloMosaic.ValueIdx

/-- A [1, 1, a] block cast to a vector of a entries reads, at i, the block at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.add_zero])

/-- A product with a transposed right operand into the zero accumulator, at (i, j). -/
theorem transposedRhs_at {M K N : ℕ} {φ₁ φ₂ : FTy} (d : DotDims ⟨2, ![M, K]⟩ ⟨2, ![N, K]⟩ ⟨2, ![M, N]⟩)
    (hd : d = DotDims.transposedRhs M K N) (l : FVec Ideal ⟨2, ![M, K]⟩ φ₁) (r : FVec Ideal ⟨2, ![N, K]⟩ φ₂) (i : Fin M) (j : Fin N) :
    FloatOps.matmul d none l r (constant (F := Ideal) ⟨2, ![M, N]⟩ .f32 0x00000000#32) (ix2 i j)
      = ∑ k : Fin K, l (ix2 i k) * r (ix2 j k) :=
  TransposedRhsDot.matmul_zero_apply d hd none l r (ix2 i j)

/-- A plain product into the zero accumulator, at (i, j). -/
theorem plain_at {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂) (i : Fin M) (j : Fin N) :
    FloatOps.matmul d none l r (constant (F := Ideal) ⟨2, ![M, N]⟩ .f32 0x00000000#32) (ix2 i j)
      = ∑ k : Fin K, l (ix2 i k) * r (ix2 k j) :=
  Cert.PlainDot.matmul_zero_apply d hd none l r (ix2 i j)

/-- The input block's rows, its unit batch axis dropped. -/
theorem rows_at (x0 : Vec Ideal S1x2048x256 .f32) (s : Fin 2048) (c : Fin 256) :
    k0_pay1 (F := Ideal) x0 (ix2 s c) = x0 (ix3 (0 : Fin 1) s c) := by
  unfold k0_pay1
  exact shapeCast_1ab_ab_apply x0 _ s c

/-- The query projection of the loaded blocks at (s, o). -/
theorem query_at (x0 : Vec Ideal S1x2048x256 .f32) (w : Vec Ideal S128x256 .f32) (s : Fin 2048) (o : Fin 128) :
    k0_pay2 (F := Ideal) x0 w (ix2 s o) = ∑ c : Fin 256, x0 (ix3 (0 : Fin 1) s c) * w (ix2 o c) := by
  unfold k0_pay2
  rw [shapeCast_self]
  refine (transposedRhs_at dot_S2048x256_S128x256_S2048x128_1_1_0_0_n_n rfl _ _ s o).trans ?_
  exact Finset.sum_congr rfl fun c _ => congrArg (· * w (ix2 o c)) (rows_at x0 s c)

/-- The key projection of the loaded blocks at (s, o). -/
theorem key_at (x0 : Vec Ideal S1x2048x256 .f32) (w : Vec Ideal S128x256 .f32) (s : Fin 2048) (o : Fin 128) :
    k0_pay3 (F := Ideal) x0 w (ix2 s o) = ∑ c : Fin 256, x0 (ix3 (0 : Fin 1) s c) * w (ix2 o c) := by
  unfold k0_pay3
  rw [shapeCast_self]
  refine (transposedRhs_at dot_S2048x256_S128x256_S2048x128_1_1_0_0_n_n rfl _ _ s o).trans ?_
  exact Finset.sum_congr rfl fun c _ => congrArg (· * w (ix2 o c)) (rows_at x0 s c)

/-- The value projection of the loaded blocks at (s, o). -/
theorem value_at (x0 : Vec Ideal S1x2048x256 .f32) (w : Vec Ideal S256x256 .f32) (s : Fin 2048) (o : Fin 256) :
    k0_pay4 (F := Ideal) x0 w (ix2 s o) = ∑ c : Fin 256, x0 (ix3 (0 : Fin 1) s c) * w (ix2 o c) := by
  unfold k0_pay4
  rw [shapeCast_self]
  refine (transposedRhs_at dot_S2048x256_S256x256_S2048x256_1_1_0_0_n_n rfl _ _ s o).trans ?_
  exact Finset.sum_congr rfl fun c _ => congrArg (· * w (ix2 o c)) (rows_at x0 s c)

/-- The output tile's arithmetic at (u, r, c), from key rows `kr`, the query rows `q`, the value rows `v`, the gate block
    `g` and input rows `xr`. -/
theorem tile_at (kr : Vec Ideal S256x128 .bf16) (q : Vec Ideal S2048x128 .bf16) (v : Vec Ideal S2048x256 .bf16)
    (g : Vec Ideal S1x1x256 .f32) (xr : Vec Ideal S1x256x256 .f32) (u : Fin 1) (r c : Fin 256) :
    k0_pay5 (F := Ideal) kr q v g xr (ix3 u r c)
      = max ((∑ s : Fin 2048, max (∑ o : Fin 128, kr (ix2 r o) * q (ix2 s o)) (Ideal.ofBits .f32 0x00000000#32) * v (ix2 s c))
            * Ideal.ofBits .f32 0x3A000000#32 + g (ix3 (0 : Fin 1) (0 : Fin 1) c)) (Ideal.ofBits .f32 0x00000000#32)
          + xr (ix3 (0 : Fin 1) r c) := by
  unfold k0_pay5
  rw [shapeCast_ab_1ab_apply]
  show max (((FloatOps.matmul dot_S256x2048_S2048x256_S256x256_1_0_0_1_n_n none _ v (constant (F := Ideal) S256x256 .f32 0x00000000#32)) (ix2 r c))
        * Ideal.ofBits .f32 0x3A000000#32 + broadcastTo S256x256 _ broadcasts_S1x256_S256x256 (ix2 r c)) (Ideal.ofBits .f32 0x00000000#32)
      + shapeCast S256x256 xr shapeCasts_S1x256x256_S256x256 (ix2 r c) = _
  rw [shapeCast_1ab_ab_apply, broadcastTo_1b_ab_apply, shapeCast_a_1a_apply, shapeCast_11a_a_apply,
    plain_at dot_S256x2048_S2048x256_S256x256_1_0_0_1_n_n rfl]
  refine congrArg (fun z => max (z * Ideal.ofBits .f32 0x3A000000#32 + g (ix3 (0 : Fin 1) (0 : Fin 1) c)) (Ideal.ofBits .f32 0x00000000#32) + xr (ix3 (0 : Fin 1) r c)) ?_
  refine Finset.sum_congr rfl fun s _ => congrArg (· * v (ix2 s c)) ?_
  show max (FloatOps.matmul dot_S256x128_S2048x128_S256x2048_1_1_0_0_n_n none kr q (constant (F := Ideal) S256x2048 .f32 0x00000000#32) (ix2 r s)) (Ideal.ofBits .f32 0x00000000#32) = _
  rw [transposedRhs_at dot_S256x128_S2048x128_S256x2048_1_1_0_0_n_n rfl]

end Cert.ReluAttention.Kernel

end
-- ==== Proof.BlockReads.lean ====
/-
  Where each window's block sits in its array.

  The grid is 16 batches by 8 tiles, point t being tile t mod 8 of batch t / 8. The input window is the whole
  [1, 2048, 256] slab of batch t / 8; the three weights are whole; the gate window is row t / 8 of the [16, 1, 256]
  gate array; the output window is rows 256·(t mod 8) … of batch t / 8. Inside the body the key rows and the input rows
  of the tile start at row 256·(t mod 8) of their buffers.
-/
import proofs.«166339_j12249246728683_1_alg».proof.Proof.Gen.KernelIdeal.Value
import Idealize.ShloMosaic.Lib.ValueIdx

set_option maxRecDepth 16384

noncomputable section

namespace Cert.ReluAttention.Kernel

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The printed index maps over the 128 grid points, decided once. -/
theorem index_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = t.val % 8 ∧ win0_5.index t (2 : Fin 3) = 0
    ∧ ((grid0.coords t) 1).val = t.val % 8 :=
  (by decide +kernel : ∀ t : Fin grid0.N, _)

theorem point_lt (t : Fin cfg0.N) : t.val < 128 := lt_of_lt_of_eq t.isLt (show cfg0.N = 128 from N_0)

/-- The batch of a grid point. -/
def batchOf (n : ℕ) (hn : n < cfg0.N) : Fin 16 := ⟨n / 8, by have := lt_of_lt_of_eq hn (show cfg0.N = 128 from N_0); omega⟩

/-- Row `r` of tile `t mod 8` as a row of the sequence. -/
def rowOf (t : Fin cfg0.N) (r : Fin 256) : Fin 2048 := ⟨256 * (t.val % 8) + r.val, by have := r.isLt; omega⟩

/-- The arrays the windows stage, as the region finds them, and the blocks, at their literal types. -/
abbrev xArr (c : Dev nD) : Vec F S16x2048x256 .f32 := V m c main_arg0
abbrev wqArr (c : Dev nD) : Vec F S128x256 .f32 := V m c main_arg2
abbrev wkArr (c : Dev nD) : Vec F S128x256 .f32 := V m c main_arg3
abbrev wvArr (c : Dev nD) : Vec F S256x256 .f32 := V m c main_arg4
abbrev gArr (c : Dev nD) : Vec F S16x1x256 .f32 := V m c main_v5
abbrev xBlk (c : Dev nD) (t : Fin cfg0.N) : Vec F S1x2048x256 .f32 := iblk m c 0 t
abbrev wqBlk (c : Dev nD) (t : Fin cfg0.N) : Vec F S128x256 .f32 := iblk m c 1 t
abbrev wkBlk (c : Dev nD) (t : Fin cfg0.N) : Vec F S128x256 .f32 := iblk m c 2 t
abbrev wvBlk (c : Dev nD) (t : Fin cfg0.N) : Vec F S256x256 .f32 := iblk m c 3 t
abbrev gBlk (c : Dev nD) (t : Fin cfg0.N) : Vec F S1x1x256 .f32 := iblk m c 4 t

/-- The input block is the slab of the point's batch. -/
theorem xBlk_at (c : Dev nD) (t : Fin cfg0.N) (u : Fin 1) (s : Fin 2048) (cc : Fin 256) :
    xBlk m c t (ix3 u s cc) = xArr m c (ix3 (batchOf t.val t.isLt) s cc) := by
  show V m c main_arg0 (((cfg0.win 0).blk t).view.emb (ix3 u s cc)) = V m c main_arg0 (ix3 (batchOf t.val t.isLt) s cc)
  refine congrArg (V m c main_arg0) (funext fun a => Fin.ext ?_)
  obtain ⟨e0, e1, e2, -⟩ := index_facts t
  have hu : u.val = 0 := by omega
  match a with
  | ⟨0, _⟩ => show win0_0.index t (0 : Fin 3) * 1 + 1 * u.val = t.val / 8; omega
  | ⟨1, _⟩ => show win0_0.index t (1 : Fin 3) * 2048 + 1 * s.val = s.val; omega
  | ⟨2, _⟩ => show win0_0.index t (2 : Fin 3) * 256 + 1 * cc.val = cc.val; omega

/-- The gate block is the gate row of the point's batch. -/
theorem gBlk_at (c : Dev nD) (t : Fin cfg0.N) (u v : Fin 1) (cc : Fin 256) :
    gBlk m c t (ix3 u v cc) = gArr m c (ix3 (batchOf t.val t.isLt) (0 : Fin 1) cc) := by
  show V m c main_v5 (((cfg0.win 4).blk t).view.emb (ix3 u v cc)) = V m c main_v5 (ix3 (batchOf t.val t.isLt) (0 : Fin 1) cc)
  refine congrArg (V m c main_v5) (funext fun a => Fin.ext ?_)
  obtain ⟨-, -, -, -, -, -, -, -, -, e0, e1, e2, -⟩ := index_facts t
  have hu : u.val = 0 := by omega
  have hv : v.val = 0 := by omega
  match a with
  | ⟨0, _⟩ => show win0_4.index t (0 : Fin 3) * 1 + 1 * u.val = t.val / 8; omega
  | ⟨1, _⟩ => show win0_4.index t (1 : Fin 3) * 1 + 1 * v.val = 0; omega
  | ⟨2, _⟩ => show win0_4.index t (2 : Fin 3) * 256 + 1 * cc.val = cc.val; omega

/-- The weights' blocks are the whole weights. -/
theorem wqBlk_eq (c : Dev nD) (t : Fin cfg0.N) : wqBlk m c t = wqArr m c := by
  funext j
  show V m c main_arg2 (((cfg0.win 1).blk t).view.emb j) = V m c main_arg2 j
  refine congrArg (V m c main_arg2) (funext fun a => Fin.ext ?_)
  obtain ⟨-, -, -, e0, e1, -⟩ := index_facts t
  match a with
  | ⟨0, _⟩ => show win0_1.index t (0 : Fin 2) * 128 + 1 * (j 0).val = (j 0).val; omega
  | ⟨1, _⟩ => show win0_1.index t (1 : Fin 2) * 256 + 1 * (j 1).val = (j 1).val; omega

theorem wkBlk_eq (c : Dev nD) (t : Fin cfg0.N) : wkBlk m c t = wkArr m c := by
  funext j
  show V m c main_arg3 (((cfg0.win 2).blk t).view.emb j) = V m c main_arg3 j
  refine congrArg (V m c main_arg3) (funext fun a => Fin.ext ?_)
  obtain ⟨-, -, -, -, -, e0, e1, -⟩ := index_facts t
  match a with
  | ⟨0, _⟩ => show win0_2.index t (0 : Fin 2) * 128 + 1 * (j 0).val = (j 0).val; omega
  | ⟨1, _⟩ => show win0_2.index t (1 : Fin 2) * 256 + 1 * (j 1).val = (j 1).val; omega

theorem wvBlk_eq (c : Dev nD) (t : Fin cfg0.N) : wvBlk m c t = wvArr m c := by
  funext j
  show V m c main_arg4 (((cfg0.win 3).blk t).view.emb j) = V m c main_arg4 j
  refine congrArg (V m c main_arg4) (funext fun a => Fin.ext ?_)
  obtain ⟨-, -, -, -, -, -, -, e0, e1, -⟩ := index_facts t
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- Inside the body, 256 rows of a [2048, 128] buffer from the tile's first row. -/
theorem keyRows_at (t : Fin cfg0.N) (k : Vec F S2048x128 .bf16) (r : Fin 256) (o : Fin 128) :
    View.ld k (Rect.unit (s := S2048x128) (k0_off1 (grid0.coords t)) S256x128.size (Gen.k0_off1_inb (grid0.coords t))) (ix2 r o)
      = k (ix2 (rowOf t r) o) := by
  show k ((Rect.unit (s := S2048x128) (k0_off1 (grid0.coords t)) S256x128.size (Gen.k0_off1_inb (grid0.coords t))).emb (ix2 r o)) = _
  refine congrArg k (funext fun a => Fin.ext ?_)
  have e := (index_facts t).2.2.2.2.2.2.2.2.2.2.2.2.2.2.2
  have ho := k0_off1_eq (grid0.coords t)
  match a with
  | ⟨0, _⟩ => show (k0_off1 (grid0.coords t)) (0 : Fin 2) + 1 * r.val = 256 * (t.val % 8) + r.val; rw [ho]; show 256 * ((grid0.coords t) 1).val + 1 * r.val = _; omega
  | ⟨1, _⟩ => show (k0_off1 (grid0.coords t)) (1 : Fin 2) + 1 * o.val = o.val; rw [ho]; show 0 + 1 * o.val = _; omega

/-- Inside the body, 256 rows of the input block from the tile's first row. -/
theorem inputRows_at (t : Fin cfg0.N) (x : Vec F S1x2048x256 .f32) (u : Fin 1) (r : Fin 256) (cc : Fin 256) :
    View.ld x (Rect.unit (s := S1x2048x256) (k0_off2 (grid0.coords t)) S1x256x256.size (Gen.k0_off2_inb (grid0.coords t))) (ix3 u r cc)
      = x (ix3 u (rowOf t r) cc) := by
  show x ((Rect.unit (s := S1x2048x256) (k0_off2 (grid0.coords t)) S1x256x256.size (Gen.k0_off2_inb (grid0.coords t))).emb (ix3 u r cc)) = _
  refine congrArg x (funext fun a => Fin.ext ?_)
  have e := (index_facts t).2.2.2.2.2.2.2.2.2.2.2.2.2.2.2
  have ho := k0_off2_eq (grid0.coords t)
  match a with
  | ⟨0, _⟩ => show (k0_off2 (grid0.coords t)) (0 : Fin 3) + 1 * u.val = u.val; rw [ho]; show 0 + 1 * u.val = _; omega
  | ⟨1, _⟩ => show (k0_off2 (grid0.coords t)) (1 : Fin 3) + 1 * r.val = 256 * (t.val % 8) + r.val; rw [ho]; show 256 * ((grid0.coords t) 1).val + 1 * r.val = _; omega
  | ⟨2, _⟩ => show (k0_off2 (grid0.coords t)) (2 : Fin 3) + 1 * cc.val = cc.val; rw [ho]; show 0 + 1 * cc.val = _; omega

end Cert.ReluAttention.Kernel

end
-- ==== Proof.ReluAttention.lean ====
/-
  The function both programs compute, index by index, on the extended reals.

  For a batch `b`, a sequence position `s` and an output feature `o`, a projection of the input is the row
  `x[b, s, ·]` against the row `W[o, ·]` of a weight stored [out, in]. The score of a query position `a` against a
  key position `t` is the rectified inner product of their 128-feature projections. The score matrix is
  contracted over its QUERY axis with the value projection, scaled by 1/2048 (the sequence length), shifted by a
  per-batch gate row (a 64-feature vector through a weight stored [out, in], plus a bias), rectified, and the input
  is added back. The zero of both rectifications and the scale are kept as the f32 words the programs spell.
-/
import Idealize.ShloMosaic.PureOps.Ideal
import Idealize.ShloMosaic.Lib.ValueIdx

noncomputable section

namespace Cert.ReluAttention

open Idealize.ShloMosaic Idealize.ShloMosaic.ValueIdx

/-- The input and the result: [batch, position, feature]. -/
abbrev SX : Shape := ⟨3, ![16, 2048, 256]⟩
/-- The gate's per-batch features. -/
abbrev SGf : Shape := ⟨2, ![16, 64]⟩
/-- The query and key weights, [out, in]. -/
abbrev SWqk : Shape := ⟨2, ![128, 256]⟩
/-- The value weight, [out, in]. -/
abbrev SWv : Shape := ⟨2, ![256, 256]⟩
/-- The gate weight, [out, in]. -/
abbrev SWg : Shape := ⟨2, ![256, 64]⟩
/-- The gate bias. -/
abbrev SBg : Shape := ⟨1, ![256]⟩

/-- The zero both rectifications compare with, as the programs spell it. -/
abbrev zero : EReal := Ideal.ofBits .f32 0x00000000#32
/-- The scale 1/2048, as the kernel spells it. -/
abbrev invLen : EReal := Ideal.ofBits .f32 0x3A000000#32

/-- Position `s` of batch `b` projected on output feature `o` of a weight with `M` rows. -/
def proj {M : Nat} (x : SX.Idx → EReal) (W : (⟨2, ![M, 256]⟩ : Shape).Idx → EReal) (b : Fin 16) (s : Fin 2048) (o : Fin M) : EReal :=
  ∑ c : Fin 256, x (ix3 b s c) * W (ix2 o c)

/-- The rectified inner product of query position `a` and key position `t`. -/
def score (x : SX.Idx → EReal) (wq wk : SWqk.Idx → EReal) (b : Fin 16) (a t : Fin 2048) : EReal :=
  max (∑ o : Fin 128, proj x wq b a o * proj x wk b t o) zero

/-- The scores of key position `t` against every query position, contracted with the value projection. -/
def mixed (x : SX.Idx → EReal) (wq wk : SWqk.Idx → EReal) (wv : SWv.Idx → EReal) (b : Fin 16) (t : Fin 2048) (c : Fin 256) : EReal :=
  ∑ a : Fin 2048, score x wq wk b a t * proj x wv b a c

/-- The per-batch gate row. -/
def gate (gf : SGf.Idx → EReal) (wg : SWg.Idx → EReal) (bg : SBg.Idx → EReal) (b : Fin 16) (c : Fin 256) : EReal :=
  ∑ j : Fin 64, gf (ix2 b j) * wg (ix2 c j) + bg (ix1 c)

/-- The result at `(b, t, c)` over any gate rows `g`. -/
def outWith (x : SX.Idx → EReal) (wq wk : SWqk.Idx → EReal) (wv : SWv.Idx → EReal) (g : Fin 16 → Fin 256 → EReal)
    (b : Fin 16) (t : Fin 2048) (c : Fin 256) : EReal :=
  max (mixed x wq wk wv b t c * invLen + g b c) zero + x (ix3 b t c)

/-- The result at `(b, t, c)`, by coordinates. -/
def outAt (x : SX.Idx → EReal) (gf : SGf.Idx → EReal) (wq wk : SWqk.Idx → EReal) (wv : SWv.Idx → EReal) (wg : SWg.Idx → EReal)
    (bg : SBg.Idx → EReal) (b : Fin 16) (t : Fin 2048) (c : Fin 256) : EReal :=
  outWith x wq wk wv (gate gf wg bg) b t c

/-- The whole result array. -/
def out (x : SX.Idx → EReal) (gf : SGf.Idx → EReal) (wq wk : SWqk.Idx → EReal) (wv : SWv.Idx → EReal) (wg : SWg.Idx → EReal)
    (bg : SBg.Idx → EReal) : SX.Idx → EReal :=
  fun i => outAt x gf wq wk wv wg bg (i 0) (i 1) (i 2)

end Cert.ReluAttention

end
-- ==== Proof.Carried.lean ====
/-
  What the kernel's kept buffers and its output tile hold after each grid point, on the extended reals.

  The three projection buffers are stored whole at a batch's first tile, from the batch's input slab and the whole
  weights, and no later tile of the batch stores into them: so after ANY point they hold the query, key and value
  projections of the point's batch (induction over the points: a first tile by what it stores, a later tile by what the
  tile before left, the batch being the same). The output tile is, at every point, the body's tile term over the input
  slab, those three arrays and the batch's gate row; read at (r, c) it is the specified result at row 256·(t mod 8) + r of
  the batch, the inner product of a key row with a query row being the product's other order.
-/
import proofs.«166339_j12249246728683_1_alg».proof.Proof.Gen.KernelIdeal.Value
import proofs.«166339_j12249246728683_1_alg».proof.Proof.Pieces
import proofs.«166339_j12249246728683_1_alg».proof.Proof.TileValue
import proofs.«166339_j12249246728683_1_alg».proof.Proof.BlockReads
import proofs.«166339_j12249246728683_1_alg».proof.Proof.ReluAttention

set_option maxRecDepth 16384

noncomputable section

namespace Cert.ReluAttention.Kernel

open Cert.KernelIdeal Cert.KernelIdeal.Gen Idealize.ShloMosaic Idealize.ShloMosaic.TcCoe Idealize.ShloMosaic.ValueIdx Cert.ReluAttention

variable (m : (ℓ : Loc nD τ sig) → Buf (Elt Ideal) ℓ)

/-- The query projection of batch `b`, as the array the kernel keeps. -/
def queryOf (c : Dev nD) (b : Fin 16) : Vec Ideal S2048x128 .bf16 := fun j => proj (xArr m c) (wqArr m c) b (j 0) (j 1)
/-- The key projection of batch `b`. -/
def keyOf (c : Dev nD) (b : Fin 16) : Vec Ideal S2048x128 .bf16 := fun j => proj (xArr m c) (wkArr m c) b (j 0) (j 1)
/-- The value projection of batch `b`. -/
def valueOf (c : Dev nD) (b : Fin 16) : Vec Ideal S2048x256 .bf16 := fun j => proj (M := 256) (xArr m c) (wvArr m c) b (j 0) (j 1)

/-- A batch's first tile leaves the three projections of its batch. -/
theorem first_tile_keeps (c : Dev nD) (t : Fin cfg0.N) (h0 : t.val % 8 = 0) :
    (outsAt0 m c t.val t.isLt).2.1 = queryOf m c (batchOf t.val t.isLt)
      ∧ (outsAt0 m c t.val t.isLt).2.2.1 = keyOf m c (batchOf t.val t.isLt)
      ∧ (outsAt0 m c t.val t.isLt).2.2.2 = valueOf m c (batchOf t.val t.isLt) := by
  rw [outsAt0_A m c t h0]; dsimp only
  refine ⟨?_, ?_, ?_⟩
  · refine (kept_query (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t)).trans ?_
    funext j
    obtain ⟨s, o, rfl⟩ : ∃ (s : Fin 2048) (o : Fin 128), j = ix2 s o := ⟨j 0, j 1, eq_ix2 j⟩
    refine (query_at (xBlk m c t) (wqBlk m c t) s o).trans ?_
    unfold queryOf proj
    refine Finset.sum_congr rfl fun cc _ => ?_
    rw [xBlk_at, wqBlk_eq]
  · refine (kept_key (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t)).trans ?_
    funext j
    obtain ⟨s, o, rfl⟩ : ∃ (s : Fin 2048) (o : Fin 128), j = ix2 s o := ⟨j 0, j 1, eq_ix2 j⟩
    refine (key_at (xBlk m c t) (wkBlk m c t) s o).trans ?_
    unfold keyOf proj
    refine Finset.sum_congr rfl fun cc _ => ?_
    rw [xBlk_at, wkBlk_eq]
  · refine (kept_value (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t)).trans ?_
    funext j
    obtain ⟨s, o, rfl⟩ : ∃ (s : Fin 2048) (o : Fin 256), j = ix2 s o := ⟨j 0, j 1, eq_ix2 j⟩
    refine (value_at (xBlk m c t) (wvBlk m c t) s o).trans ?_
    unfold valueOf proj
    refine Finset.sum_congr rfl fun cc _ => ?_
    rw [xBlk_at, wvBlk_eq]

/-- After every point the kept buffers hold the projections of the point's batch. -/
theorem kept_after (c : Dev nD) : ∀ (n : ℕ) (hn : n < cfg0.N),
    (outsAt0 m c n hn).2.1 = queryOf m c (batchOf n hn) ∧ (outsAt0 m c n hn).2.2.1 = keyOf m c (batchOf n hn)
      ∧ (outsAt0 m c n hn).2.2.2 = valueOf m c (batchOf n hn) := by
  intro n
  induction n with
  | zero => intro hn; exact first_tile_keeps m c ⟨0, hn⟩ (Nat.zero_mod _)
  | succ k ih =>
    intro hn
    by_cases h0 : (k + 1) % 8 = 0
    · exact first_tile_keeps m c ⟨k + 1, hn⟩ h0
    · have hk : k < cfg0.N := Nat.lt_of_succ_lt hn
      obtain ⟨iq, ik, iv⟩ := ih hk
      have hb : batchOf (k + 1) hn = batchOf k hk := Fin.ext (by show (k + 1) / 8 = k / 8; omega)
      rw [outsAt0_B m c ⟨k + 1, hn⟩ h0]; dsimp only
      unfold sout0_B_0 sout0_B_1 sout0_B_2
      rw [hb]
      exact ⟨iq, ik, iv⟩

/-- At every point the output tile is the tile term over the input slab, what the kept buffers hold after the point, and
    the gate row. -/
theorem tile_eq (c : Dev nD) (t : Fin cfg0.N) :
    (outsAt0 m c t.val t.isLt).1
      = tile (grid0.coords t) (xBlk m c t) (outsAt0 m c t.val t.isLt).2.1 (outsAt0 m c t.val t.isLt).2.2.1
          (outsAt0 m c t.val t.isLt).2.2.2 (gBlk m c t) := by
  by_cases h0 : t.val % 8 = 0
  · rw [outsAt0_A m c t h0]; dsimp only
    rw [kept_query (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t),
      kept_key (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t),
      kept_value (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t)]
    exact tile_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (xBlk m c t) (wqBlk m c t) (wkBlk m c t) (wvBlk m c t) (gBlk m c t)
  · rw [outsAt0_B m c t h0]; dsimp only
    unfold sout0_B_0 sout0_B_1 sout0_B_2
    exact tile_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (xBlk m c t) (wqBlk m c t) (wkBlk m c t) (wvBlk m c t) (gBlk m c t) _ _ _

/-- The output tile at (u, r, c) is the specified result at row 256·(t mod 8) + r of the point's batch, over the gate
    rows of the gate array. -/
theorem tile_after (c : Dev nD) (t : Fin cfg0.N) (u : Fin 1) (r cc : Fin 256) :
    (outsAt0 m c t.val t.isLt).1 (ix3 u r cc)
      = outWith (xArr m c) (wqArr m c) (wkArr m c) (wvArr m c) (fun b c' => gArr m c (ix3 b (0 : Fin 1) c'))
          (batchOf t.val t.isLt) (rowOf t r) cc := by
  obtain ⟨hq, hk, hv⟩ := kept_after m c t.val t.isLt
  rw [tile_eq m c t, hq, hk, hv]
  unfold tile
  refine (tile_at _ _ _ _ _ u r cc).trans ?_
  have hx := (inputRows_at t (xBlk m c t) (0 : Fin 1) r cc).trans (xBlk_at m c t (0 : Fin 1) (rowOf t r) cc)
  have hg := gBlk_at m c t (0 : Fin 1) (0 : Fin 1) cc
  rw [hx, hg]
  unfold outWith mixed score
  refine congrArg (fun z => max (z * invLen + gArr m c (ix3 (batchOf t.val t.isLt) (0 : Fin 1) cc)) zero
    + xArr m c (ix3 (batchOf t.val t.isLt) (rowOf t r) cc)) ?_
  refine Finset.sum_congr rfl fun s _ => ?_
  refine congrArg₂ (fun y z => max y zero * z) (Finset.sum_congr rfl fun o _ => ?_) rfl
  rw [keyRows_at]
  exact mul_comm _ _

end Cert.ReluAttention.Kernel

end
-- ==== Proof.KernelValue.lean ====
/-
  The kernel's result array after the run is the specified function of the argument arrays.

  The gate array the region finds was written by the host operations before it: the per-batch features times the
  transposed gate weight, plus the bias broadcast over the batches, reshaped to [16, 1, 256]; read at (b, 0, c) it is the
  specified gate row. What point t writes back is its tile, which is the specified result on rows 256·(t mod 8) … of
  batch t / 8, that is, the result read through the output window's block at t. Every index (b, s, c) of the result lies
  in the block of the point 8·b + s / 256, so the blocks cover the array and the array ends at the specified function.
-/
import proofs.«166339_j12249246728683_1_alg».proof.Proof.Gen.KernelIdeal.Value
import proofs.«166339_j12249246728683_1_alg».proof.Proof.Carried
import proofs.«166339_j12249246728683_1_alg».proof.Proof.LibPlainDot
import Idealize.ShloMosaic.Lib.StableHlo.Run
import Idealize.ShloMosaic.Lib.ValueLayout

set_option maxRecDepth 16384

noncomputable section

namespace Cert.ReluAttention.Kernel

open Cert.KernelIdeal Cert.KernelIdeal.Gen Idealize.ShloMosaic Idealize.ShloMosaic.TcCoe Idealize.ShloMosaic.ValueIdx Idealize.SL.Sem
open Cert.ReluAttention

variable (m : (ℓ : Loc nD τ sig) → Buf (Elt Ideal) ℓ) (ρ : Dev nD → PrngReg)

/-- The gate's arguments as launched, at their literal types. -/
abbrev gfIn (c : Dev nD) : Vec Ideal S16x64 .f32 := m ((c : Thread nD τ).loc main_arg1)
abbrev wgIn (c : Dev nD) : Vec Ideal S256x64 .f32 := m ((c : Thread nD τ).loc main_arg5)
abbrev bgIn (c : Dev nD) : Vec Ideal S256 .f32 := m ((c : Thread nD τ).loc main_arg6)

/-- The gate array as the region finds it: the host operations' term of the launched arguments. -/
theorem gateArray_eq (c : Dev nD) : @Eq (Vec Ideal S16x1x256 .f32) (gArr m c)
    (shapeCast S16x1x256 (addf (F := Ideal) (Host.dotGeneral (F := Ideal) (φ₁ := .f32) (φ₂ := .f32) dot_S16x64_S64x256_S16x256_1_0_0_1_n_n none (gfIn m c)
          (transpose S64x256 [1, 0] (wgIn m c) transposes_S256x64_S64x256_1_0))
        (broadcastInDim S16x256 ![0, 1] bcast_S1x256_S16x256_0_1 (broadcastInDim S1x256 ![1] bcast_S256_S1x256_1 (bgIn m c))))
        shapeCasts_S16x256_S16x1x256) := by
  dsimp only [gArr, Gen.V, Gen.hostOps0]; after_results; rfl

/-- The gate array at (b, 0, c) is the specified gate row. -/
theorem gArr_at (c : Dev nD) (b : Fin 16) (u : Fin 1) (cc : Fin 256) :
    gArr m c (ix3 b u cc) = gate (gfIn m c) (wgIn m c) (bgIn m c) b cc := by
  rw [gateArray_eq]
  have hu : u.val = 0 := by omega
  rw [shapeCast_apply _ shapeCasts_S16x256_S16x1x256 (ix3 b u cc) (ix2 b cc) (by
    rw [Shape.rowMajor_val_two, Shape.rowMajor_val_three]
    show b.val * 256 + cc.val = (b.val * 1 + u.val) * 256 + cc.val
    rw [hu]; omega)]
  rw [addf_apply]
  unfold gate
  refine congrArg₂ (· + ·) ?_ ?_
  · simp only [Host.dotGeneral]
    refine (Cert.PlainDot.dotGeneral_apply dot_S16x64_S64x256_S16x256_1_0_0_1_n_n rfl none _ (gfIn m c) _ (ix2 b cc)).trans ?_
    refine Finset.sum_congr rfl fun k _ => ?_
    exact congrArg (gfIn m c (ix2 b k) * ·) (transpose_ix2_apply (wgIn m c) transposes_S256x64_S64x256_1_0 k cc)
  · refine (broadcastInDim_apply _ bcast_S1x256_S16x256_0_1 _ (ix2 b cc) (ix2 (0 : Fin 1) cc) (fun a => match a with
      | ⟨0, _⟩ => by show 0 = if (1 : Nat) = 1 then 0 else b.val; rw [if_pos rfl]
      | ⟨1, _⟩ => by show cc.val = if (256 : Nat) = 1 then 0 else cc.val; rw [if_neg (by decide)])).trans ?_
    exact broadcastInDim_apply _ bcast_S256_S1x256_1 (bgIn m c) (ix2 (0 : Fin 1) cc) (ix1 cc) (fun a => match a with
      | ⟨0, _⟩ => by show cc.val = if (256 : Nat) = 1 then 0 else cc.val; rw [if_neg (by decide)])

/-- The result array as a function of the arrays the region finds. -/
def resultOf (c : Dev nD) : Vec Ideal S16x2048x256 .f32 := fun i =>
  outWith (xArr m c) (wqArr m c) (wkArr m c) (wvArr m c) (fun b c' => gArr m c (ix3 b (0 : Fin 1) c')) (i 0) (i 1) (i 2)

/-- What point t writes back is the result read through the output window's block at t. -/
theorem flushed_eq (c : Dev nD) (t : Fin cfg0.N) :
    (dats m 0 c).flushed 5 t = ((cfg0.win 5).blk t).view.read (Elt Ideal) (resultOf m c) := by
  rw [Cert.KernelIdeal.Value.flushed5]
  refine funext fun (y : S1x256x256.Idx) => ?_
  obtain ⟨u, r, cc, rfl⟩ : ∃ (u : Fin 1) (r cc : Fin 256), y = ix3 u r cc := ⟨y 0, y 1, y 2, eq_ix3 y⟩
  show (outsAt0 m c t.val t.isLt).1 (ix3 u r cc) = resultOf m c (((cfg0.win 5).blk t).view.emb (ix3 u r cc))
  rw [tile_after]
  obtain ⟨-, -, -, -, -, -, -, -, -, -, -, -, e0, e1, e2, -⟩ := index_facts t
  have hu : u.val = 0 := by omega
  have h0 : (((cfg0.win 5).blk t).view.emb (ix3 u r cc)) 0 = batchOf t.val t.isLt :=
    Fin.ext (by show win0_5.index t (0 : Fin 3) * 1 + 1 * u.val = t.val / 8; omega)
  have h1 : (((cfg0.win 5).blk t).view.emb (ix3 u r cc)) 1 = rowOf t r :=
    Fin.ext (by show win0_5.index t (1 : Fin 3) * 256 + 1 * r.val = 256 * (t.val % 8) + r.val; omega)
  have h2 : (((cfg0.win 5).blk t).view.emb (ix3 u r cc)) 2 = cc :=
    Fin.ext (by show win0_5.index t (2 : Fin 3) * 256 + 1 * cc.val = cc.val; omega)
  show _ = outWith (xArr m c) (wqArr m c) (wkArr m c) (wvArr m c) (fun b c' => gArr m c (ix3 b (0 : Fin 1) c'))
    ((((cfg0.win 5).blk t).view.emb (ix3 u r cc)) 0) ((((cfg0.win 5).blk t).view.emb (ix3 u r cc)) 1) ((((cfg0.win 5).blk t).view.emb (ix3 u r cc)) 2)
  rw [h0, h1, h2]

/-- An index is in point t's block iff each coordinate is in the block's range on its axis. -/
theorem mem_block (t : Fin cfg0.N) (i : S16x2048x256.Idx) :
    i ∈ ((cfg0.win 5).blk t).view.set ↔ ∀ a : Fin 3, win0_5.index t a * S1x256x256.size a ≤ (i a).val
      ∧ (i a).val < win0_5.index t a * S1x256x256.size a + S1x256x256.size a := by
  show i ∈ ((View.whole main_v6).slice (win0_5.rect t)).set ↔ _
  rw [View.set_slice_whole, Rect.mem_set_unit]
  exact Iff.rfl

/-- Index (b, s, c) lies in the block of the point 8·b + s / 256. -/
theorem covered (i : S16x2048x256.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 256 := (i 2).isLt
  have hN : 8 * (i 0).val + (i 1).val / 256 < cfg0.N := by rw [show cfg0.N = 128 from N_0]; omega
  refine ⟨⟨8 * (i 0).val + (i 1).val / 256, hN⟩, flush0_5 _, ?_⟩
  rw [mem_block]
  obtain ⟨-, -, -, -, -, -, -, -, -, -, -, -, e0, e1, e2, -⟩ := index_facts ⟨8 * (i 0).val + (i 1).val / 256, hN⟩
  have e0' : win0_5.index ⟨8 * (i 0).val + (i 1).val / 256, hN⟩ (0 : Fin 3) = (8 * (i 0).val + (i 1).val / 256) / 8 := e0
  have e1' : win0_5.index ⟨8 * (i 0).val + (i 1).val / 256, hN⟩ (1 : Fin 3) = (8 * (i 0).val + (i 1).val / 256) % 8 := e1
  intro a
  match a with
  | ⟨0, _⟩ =>
    show win0_5.index ⟨8 * (i 0).val + (i 1).val / 256, hN⟩ (0 : Fin 3) * 1 ≤ (i 0).val
      ∧ (i 0).val < win0_5.index ⟨8 * (i 0).val + (i 1).val / 256, hN⟩ (0 : Fin 3) * 1 + 1
    omega
  | ⟨1, _⟩ =>
    show win0_5.index ⟨8 * (i 0).val + (i 1).val / 256, hN⟩ (1 : Fin 3) * 256 ≤ (i 1).val
      ∧ (i 1).val < win0_5.index ⟨8 * (i 0).val + (i 1).val / 256, hN⟩ (1 : Fin 3) * 256 + 256
    omega
  | ⟨2, _⟩ =>
    show win0_5.index ⟨8 * (i 0).val + (i 1).val / 256, hN⟩ (2 : Fin 3) * 256 ≤ (i 2).val
      ∧ (i 2).val < win0_5.index ⟨8 * (i 0).val + (i 1).val / 256, hN⟩ (2 : Fin 3) * 256 + 256
    omega

/-- The result array after the run. -/
theorem final (c : Dev nD) : (dats m 0 c).arrAt 5 cfg0.N = resultOf m c :=
  (dats m 0 c).arrAt_eq_of_cover 5 (resultOf m c) (fun t _ => flushed_eq m c t) covered

/-- … which is the specified function of the arguments as launched: no host operation before the region writes an
    argument, and the gate rows are the specified ones. -/
theorem resultOf_eq (c : Dev nD) :
    resultOf m c = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  have hg : (fun b c' => gArr m c (ix3 b (0 : Fin 1) c')) = gate (gfIn m c) (wgIn m c) (bgIn m c) :=
    funext fun b => funext fun c' => gArr_at m c b 0 c'
  have hx : (xArr m c) = m ((c : Thread nD τ).loc main_arg0) := V_main_arg0 m c
  have hq : (wqArr m c) = m ((c : Thread nD τ).loc main_arg2) := V_main_arg2 m c
  have hk : (wkArr m c) = m ((c : Thread nD τ).loc main_arg3) := V_main_arg3 m c
  have hv : (wvArr m c) = m ((c : Thread nD τ).loc main_arg4) := V_main_arg4 m c
  unfold resultOf
  rw [hg, hx, hq, hk, hv]
  rfl

/-- The kernel's run with its result array at the specified function of the arguments, the arguments unchanged. -/
theorem run : θ_run defs (onTc (τ := τ) (main (F := Ideal))) ⟨m, fun _ => 0, ρ⟩ fun r => ∀ c : Dev nD,
      r.2.mem ((c : Thread nD τ).loc main_v6) = out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (resultOf_eq m c)), (h c).2⟩)
    (Cert.KernelIdeal.Value.run_blocks m ρ)

end Cert.ReluAttention.Kernel

end
-- ==== Proof.Scale.lean ====
/-
  The one scalar law of this certificate. The kernel scales the attention-weighted sum by the f32 word of
  2⁻¹¹ = 1/2048, a power of two and so exactly that rational; the reference divides by the f32 word of 2048. On
  the extended reals the quotient by a nonzero real is the product with its reciprocal, at every extended real
  (the infinities included), so the two scalings are one function.
-/
import Idealize.ShloMosaic.PureOps.Ideal

noncomputable section

namespace Cert.Scale

open Idealize.ShloMosaic

/-- The word `0x45000000` denotes the real 2048. -/
theorem ofBits_2048 : Ideal.ofBits .f32 0x45000000#32 = ((2048 : ℝ) : EReal) := by
  simp [Ideal.ofBits, Ideal.ieee, -EReal.coe_mul]; norm_num

/-- The word `0x3A000000` denotes the real 1/2048. -/
theorem ofBits_inv2048 : Ideal.ofBits .f32 0x3A000000#32 = ((1 / 2048 : ℝ) : EReal) := by
  simp [Ideal.ofBits, Ideal.ieee, -EReal.coe_mul]; norm_num

/-- Dividing by 2048 is multiplying by 1/2048, on every extended real. -/
theorem div_2048_eq_mul (y : EReal) :
    Ideal.div y (Ideal.ofBits .f32 0x45000000#32) = y * Ideal.ofBits .f32 0x3A000000#32 := by
  rw [ofBits_2048, ofBits_inv2048]
  exact Ideal.div_coe (by norm_num) y

end Cert.Scale

end
-- ==== Proof.ReferenceValue.lean ====
/-
  The reference program computes the specified function. Read one operation at a time: the three projections are
  contractions of a row of the input with a row of a weight; the score array holds, at (b, a, t), the rectified inner
  product of query position a and key position t; the next contraction runs over the QUERY axis a, which gives the
  weighted sum for key position t; the quotient by 2048 is the product with 1/2048; the gate is a plain product with
  the transposed gate weight plus the bias, broadcast over the positions; a rectification and the input added back.
-/
import proofs.«166339_j12249246728683_1_alg».proof.Proof.Gen.ReferenceIdeal.Read
import proofs.«166339_j12249246728683_1_alg».proof.Proof.ReluAttention
import proofs.«166339_j12249246728683_1_alg».proof.Proof.Scale

noncomputable section

namespace Cert.ReluAttention.Reference

open Cert.ReferenceIdeal Cert.ReferenceIdeal.Read Idealize.ShloMosaic Idealize.ShloMosaic.ValueIdx Cert.ReluAttention

variable (x0 : (⟨S16x2048x256, .f32⟩ : BufTy).Contents (Elt Ideal)) (x1 : (⟨S16x64, .f32⟩ : BufTy).Contents (Elt Ideal))
  (x2 x3 : (⟨S128x256, .f32⟩ : BufTy).Contents (Elt Ideal)) (x4 : (⟨S256x256, .f32⟩ : BufTy).Contents (Elt Ideal))
  (x5 : (⟨S256x64, .f32⟩ : BufTy).Contents (Elt Ideal)) (x6 : (⟨S256, .f32⟩ : BufTy).Contents (Elt Ideal))

/-- The query projection at (b, s, o). -/
theorem query_at (b : Fin 16) (s : Fin 2048) (o : Fin 128) :
    val_main_v0 (F := Ideal) x0 x2 (ix3 b s o) = proj x0 x2 b s o := by
  rw [val_main_v0_apply]; unfold proj
  refine Finset.sum_congr rfl fun k _ => ?_
  have el : lidx_main_v0 (ix3 b s o) k = ix3 b s k := funext fun a => by match a with | ⟨0, _⟩ => rfl | ⟨1, _⟩ => rfl | ⟨2, _⟩ => rfl
  have er : ridx_main_v0 (ix3 b s o) k = ix2 o k := funext fun a => by match a with | ⟨0, _⟩ => rfl | ⟨1, _⟩ => rfl
  rw [el, er]

/-- The key projection at (b, s, o). -/
theorem key_at (b : Fin 16) (s : Fin 2048) (o : Fin 128) :
    val_main_v1 (F := Ideal) x0 x3 (ix3 b s o) = proj x0 x3 b s o := by
  rw [val_main_v1_apply]; unfold proj
  refine Finset.sum_congr rfl fun k _ => ?_
  have el : lidx_main_v1 (ix3 b s o) k = ix3 b s k := funext fun a => by match a with | ⟨0, _⟩ => rfl | ⟨1, _⟩ => rfl | ⟨2, _⟩ => rfl
  have er : ridx_main_v1 (ix3 b s o) k = ix2 o k := funext fun a => by match a with | ⟨0, _⟩ => rfl | ⟨1, _⟩ => rfl
  rw [el, er]

/-- The value projection at (b, s, c). -/
theorem value_at (b : Fin 16) (s : Fin 2048) (c : Fin 256) :
    val_main_v2 (F := Ideal) x0 x4 (ix3 b s c) = proj x0 x4 b s c := by
  rw [val_main_v2_apply]; unfold proj
  refine Finset.sum_congr rfl fun k _ => ?_
  have el : lidx_main_v2 (ix3 b s c) k = ix3 b s k := funext fun a => by match a with | ⟨0, _⟩ => rfl | ⟨1, _⟩ => rfl | ⟨2, _⟩ => rfl
  have er : ridx_main_v2 (ix3 b s c) k = ix2 c k := funext fun a => by match a with | ⟨0, _⟩ => rfl | ⟨1, _⟩ => rfl
  rw [el, er]

/-- The rectified score array at (b, a, t): query position a against key position t. -/
theorem score_at (b : Fin 16) (a t : Fin 2048) :
    val_main_v4 (F := Ideal) x0 x2 x3 (ix3 b a t) = score x0 x2 x3 b a t := by
  rw [val_main_v4_apply, val_main_v3_apply, val_main_call0_v0_apply, val_main_call0_cst_apply]; unfold score
  show max _ _ = max _ _
  refine congrArg₂ max (Finset.sum_congr rfl fun k _ => ?_) rfl
  have el : lidx_main_v3 (ix3 b a t) k = ix3 b a k := funext fun d => by match d with | ⟨0, _⟩ => rfl | ⟨1, _⟩ => rfl | ⟨2, _⟩ => rfl
  have er : ridx_main_v3 (ix3 b a t) k = ix3 b t k := funext fun d => by match d with | ⟨0, _⟩ => rfl | ⟨1, _⟩ => rfl | ⟨2, _⟩ => rfl
  rw [el, er, query_at, key_at]

/-- The contraction over the query axis at (b, t, c). -/
theorem mixed_at (b : Fin 16) (t : Fin 2048) (c : Fin 256) :
    val_main_v5 (F := Ideal) x0 x2 x3 x4 (ix3 b t c) = mixed x0 x2 x3 x4 b t c := by
  rw [val_main_v5_apply]; unfold mixed
  refine Finset.sum_congr rfl fun k _ => ?_
  have el : lidx_main_v5 (ix3 b t c) k = ix3 b k t := funext fun d => by match d with | ⟨0, _⟩ => rfl | ⟨1, _⟩ => rfl | ⟨2, _⟩ => rfl
  have er : ridx_main_v5 (ix3 b t c) k = ix3 b k c := funext fun d => by match d with | ⟨0, _⟩ => rfl | ⟨1, _⟩ => rfl | ⟨2, _⟩ => rfl
  rw [el, er, score_at, value_at]

/-- The quotient by the sequence length is the product with its reciprocal. -/
theorem scaled_at (b : Fin 16) (t : Fin 2048) (c : Fin 256) :
    val_main_v7 (F := Ideal) x0 x2 x3 x4 (ix3 b t c) = mixed x0 x2 x3 x4 b t c * invLen := by
  rw [val_main_v7_apply, val_main_v6_apply, val_main_cst_apply, mixed_at]
  exact Cert.Scale.div_2048_eq_mul _

/-- The gate array at (b, c). -/
theorem gate_at (b : Fin 16) (c : Fin 256) :
    val_main_v12 (F := Ideal) x1 x5 x6 (ix2 b c) = gate x1 x5 x6 b c := by
  rw [val_main_v12_apply, val_main_v9_apply, val_main_v11_apply, val_main_v10_apply]; unfold gate
  show _ + _ = _ + _
  refine congrArg₂ (· + ·) (Finset.sum_congr rfl fun k _ => ?_) ?_
  · have el : lidx_main_v9 (ix2 b c) k = ix2 b k := funext fun d => by match d with | ⟨0, _⟩ => rfl | ⟨1, _⟩ => rfl
    have er : idx_main_v8 (ridx_main_v9 (ix2 b c) k) = ix2 c k := funext fun d => by match d with | ⟨0, _⟩ => rfl | ⟨1, _⟩ => rfl
    rw [val_main_v8_apply, el, er]
  · have e : idx_main_v10 (idx_main_v11 (ix2 b c)) = ix1 c := funext fun d => by match d with | ⟨0, _⟩ => rfl
    rw [e]

/-- The gate broadcast over the positions, at (b, t, c). -/
theorem gate_bcast_at (b : Fin 16) (t : Fin 2048) (c : Fin 256) :
    val_main_v14 (F := Ideal) x1 x5 x6 (ix3 b t c) = gate x1 x5 x6 b c := by
  rw [val_main_v14_apply, val_main_v13_apply]
  have e : idx_main_v13 (idx_main_v14 (ix3 b t c)) = ix2 b c := funext fun d => by match d with | ⟨0, _⟩ => rfl | ⟨1, _⟩ => rfl
  rw [e, gate_at]

/-- The reference's result array is the specified function of its arguments. -/
theorem result_eq : val_main_v17 (F := Ideal) x0 x1 x2 x3 x4 x5 x6 = out x0 x1 x2 x3 x4 x5 x6 := by
  funext i
  obtain ⟨b, t, c, rfl⟩ : ∃ (b : Fin 16) (t : Fin 2048) (c : Fin 256), i = ix3 b t c := ⟨i 0, i 1, i 2, eq_ix3 i⟩
  rw [val_main_v17_apply, val_main_v16_apply, val_main_v15_apply, val_main_call1_v0_apply, val_main_call1_cst_apply,
    scaled_at, gate_bcast_at]
  rfl

end Cert.ReluAttention.Reference

end
-- ==== Proof.lean ====
/-
  The kernel against its reference, over the extended reals.

  Both programs compute, for a batch b, a key position t and a feature c,
      max( (∑ₐ max(∑ₒ q[b,a,o]·k[b,t,o], 0) · v[b,a,c]) · (1/2048) + g[b,c], 0 ) + x[b,t,c],
  where q, k, v are the projections of x on the query, key and value weights (rows against rows) and g is the gate row
  gf·W_gᵀ + b_g. The kernel keeps q, k, v of one batch in three buffers filled at the batch's first tile, and computes
  each 256-row tile of the result from them; it writes the inner product as k·q and the scale as a product with the
  word of 2⁻¹¹, where the reference writes q·k and a quotient by the word of 2048. On the extended reals the products
  commute and the quotient by 2048 is the product with 1/2048 everywhere, so no finiteness of the inputs is used.

  The three frames are the generated frame runs (the reference's its generated run with the result dropped); the ideal
  pass rewrote nothing, so the preservation claim is trivial; the value claim sets the kernel's run, its result array
  named by the specified function (Proof/KernelValue.lean), beside the reference's run, whose term is the same
  function (Proof/ReferenceValue.lean), on arguments that agree.
-/
import proofs.«166339_j12249246728683_1_alg».proof.Defs
import proofs.«166339_j12249246728683_1_alg».proof.Proof.Gen.Kernel
import proofs.«166339_j12249246728683_1_alg».proof.Proof.Gen.Kernel.Skeleton
import proofs.«166339_j12249246728683_1_alg».proof.Proof.Gen.Kernel.Launch
import proofs.«166339_j12249246728683_1_alg».proof.Proof.Gen.Kernel.Points
import proofs.«166339_j12249246728683_1_alg».proof.Proof.Gen.Kernel.Frame
import proofs.«166339_j12249246728683_1_alg».proof.Proof.Gen.KernelIdeal
import proofs.«166339_j12249246728683_1_alg».proof.Proof.Gen.KernelIdeal.Skeleton
import proofs.«166339_j12249246728683_1_alg».proof.Proof.Gen.KernelIdeal.Launch
import proofs.«166339_j12249246728683_1_alg».proof.Proof.Gen.KernelIdeal.Points
import proofs.«166339_j12249246728683_1_alg».proof.Proof.Gen.KernelIdeal.Frame
import proofs.«166339_j12249246728683_1_alg».proof.Proof.Gen.ReferenceIdeal
import proofs.«166339_j12249246728683_1_alg».proof.Proof.Gen.Pre_finite_inputs
import proofs.«166339_j12249246728683_1_alg».proof.Proof.Gen.KernelIdeal.Value
import proofs.«166339_j12249246728683_1_alg».proof.Proof.Gen.ReferenceIdeal.Run
import proofs.«166339_j12249246728683_1_alg».proof.Proof.Gen.ReferenceIdeal.Read
import proofs.«166339_j12249246728683_1_alg».proof.Proof.KernelValue
import proofs.«166339_j12249246728683_1_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both runs end with the result array at the one specified function of the arguments. -/
theorem algebraic : Cert.algebraic_KernelIdeal_ReferenceIdeal := by
  intro m ρ m' ρ' _ hagree
  refine ⟨_, Cert.ReluAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReluAttention.Reference.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
